-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v12)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v12) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v12) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S10000x128 : Shape := ⟨2, ![10000, 128]⟩
abbrev S640000x64 : Shape := ⟨2, ![640000, 64]⟩
abbrev S640000 : Shape := ⟨1, ![640000]⟩
abbrev S192x128 : Shape := ⟨2, ![192, 128]⟩
abbrev S128 : Shape := ⟨1, ![128]⟩
abbrev S_ : Shape := ⟨0, ![]⟩

class Facts : Prop where
  bcast_S_S10000x128 : S_.BroadcastsInDim S10000x128 (![] : Fin 0 → Fin S10000x128.rank)
  reducesTo_S10000x128_S_d0_1 : S10000x128.ReducesTo [0, 1] S_
  h_S_ : 0 < S_.numel
  bcast_S_S640000x64 : S_.BroadcastsInDim S640000x64 (![] : Fin 0 → Fin S640000x64.rank)
  reducesTo_S640000x64_S_d0_1 : S640000x64.ReducesTo [0, 1] S_
  bcast_S_S192x128 : S_.BroadcastsInDim S192x128 (![] : Fin 0 → Fin S192x128.rank)
  reducesTo_S192x128_S_d0_1 : S192x128.ReducesTo [0, 1] S_
  bcast_S_S128 : S_.BroadcastsInDim S128 (![] : Fin 0 → Fin S128.rank)
  reducesTo_S128_S_d0 : S128.ReducesTo [0] S_
  bcast_S_S640000 : S_.BroadcastsInDim S640000 (![] : Fin 0 → Fin S640000.rank)
  reducesTo_S640000_S_d0 : S640000.ReducesTo [0] S_

variable [Facts]

def fn_part1 {F : FTy → Type} [FloatOps F] (main_arg2 : IVec S640000 32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_c_6 : IVec S_ 32 := constantI S_ 32 0#32
  let main_v19 : IVec S640000 32 := broadcastInDim S640000 ![] bcast_S_S640000 main_c_6
  let main_v20 : IVec S640000 1 := cmpi .sge main_arg2 main_v19
  let main_c_7 : IVec S_ 1 := constantI S_ 1 1#1
  let main_v21 : IVec S_ 1 := (fun x v => Host.reduce IntOp.andi x v reducesTo_S640000_S_d0 h_S_) main_v20 main_c_7
  let main_v22 : IVec S_ 1 := andi main_v18 main_v21
  main_v22

def fn {F : FTy → Type} [FloatOps F] (main_arg0 : FVec F S10000x128 .f32) (main_arg1 : FVec F S640000x64 .f32) (main_arg2 : IVec S640000 32) (main_arg3 : FVec F S192x128 .f32) (main_arg4 : FVec F S128 .f32) : IVec S_ 1 :=
  let main_v0 : FVec F S10000x128 .f32 := Host.absf main_arg0
  let main_cst : FVec F S_ .f32 := constant S_ .f32 0x7F800000#32
  let main_v1 : FVec F S10000x128 .f32 := broadcastInDim S10000x128 ![] bcast_S_S10000x128 main_cst
  let main_v2 : IVec S10000x128 1 := cmpf .olt main_v0 main_v1
  let main_c : IVec S_ 1 := constantI S_ 1 1#1
  let main_v3 : IVec S_ 1 := (fun x v => Host.reduce IntOp.andi x v reducesTo_S10000x128_S_d0_1 h_S_) main_v2 main_c
  let main_v4 : FVec F S640000x64 .f32 := Host.absf main_arg1
  let main_cst_0 : FVec F S_ .f32 := constant S_ .f32 0x7F800000#32
  let main_v5 : FVec F S640000x64 .f32 := broadcastInDim S640000x64 ![] bcast_S_S640000x64 main_cst_0
  let main_v6 : IVec S640000x64 1 := cmpf .olt main_v4 main_v5
  let main_c_1 : IVec S_ 1 := constantI S_ 1 1#1
  let main_v7 : IVec S_ 1 := (fun x v => Host.reduce IntOp.andi x v reducesTo_S640000x64_S_d0_1 h_S_) main_v6 main_c_1
  let main_v8 : IVec S_ 1 := andi main_v3 main_v7
  let main_v9 : FVec F S192x128 .f32 := Host.absf main_arg3
  let main_cst_2 : FVec F S_ .f32 := constant S_ .f32 0x7F800000#32
  let main_v10 : FVec F S192x128 .f32 := broadcastInDim S192x128 ![] bcast_S_S192x128 main_cst_2
  let main_v11 : IVec S192x128 1 := cmpf .olt main_v9 main_v10
  let main_c_3 : IVec S_ 1 := constantI S_ 1 1#1
  let main_v12 : IVec S_ 1 := (fun x v => Host.reduce IntOp.andi x v reducesTo_S192x128_S_d0_1 h_S_) main_v11 main_c_3
  let main_v13 : IVec S_ 1 := andi main_v8 main_v12
  let main_v14 : FVec F S128 .f32 := Host.absf main_arg4
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg2 main_v13 main_v16
-- ==== Kernel.lean ====
abbrev S10000x128 : Shape := ⟨2, ![10000, 128]⟩
abbrev S640000x64 : Shape := ⟨2, ![640000, 64]⟩
abbrev S640000 : Shape := ⟨1, ![640000]⟩
abbrev S192x128 : Shape := ⟨2, ![192, 128]⟩
abbrev S128 : Shape := ⟨1, ![128]⟩
abbrev S128x128 : Shape := ⟨2, ![128, 128]⟩
abbrev S64x128 : Shape := ⟨2, ![64, 128]⟩
abbrev S_ : Shape := ⟨0, ![]⟩
abbrev S640000x1 : Shape := ⟨2, ![640000, 1]⟩
abbrev S640000x128 : Shape := ⟨2, ![640000, 128]⟩
abbrev S1x128 : Shape := ⟨2, ![1, 128]⟩
abbrev S6400x128 : Shape := ⟨2, ![6400, 128]⟩
abbrev S6400x64 : Shape := ⟨2, ![6400, 64]⟩

abbrev nBuf : Space → Nat
  | .hbm => 27
  | .vmem => 11
  | .smem => 0
  | _ => 0

abbrev bufTy : (tb : Table) → Fin (tcTables nBuf tb) → BufTy
  | .hbm, ⟨0, _⟩ => ⟨S10000x128, .f32⟩
  | .hbm, ⟨1, _⟩ => ⟨S640000x64, .f32⟩
  | .hbm, ⟨2, _⟩ => ⟨S640000, .i32⟩
  | .hbm, ⟨3, _⟩ => ⟨S192x128, .f32⟩
  | .hbm, ⟨4, _⟩ => ⟨S128, .f32⟩
  | .hbm, ⟨5, _⟩ => ⟨S128x128, .f32⟩
  | .hbm, ⟨6, _⟩ => ⟨S64x128, .f32⟩
  | .hbm, ⟨7, _⟩ => ⟨S10000x128, .bf16⟩
  | .hbm, ⟨8, _⟩ => ⟨S_, .i32⟩
  | .hbm, ⟨9, _⟩ => ⟨S_, .i32⟩
  | .hbm, ⟨10, _⟩ => ⟨S_, .i32⟩
  | .hbm, ⟨11, _⟩ => ⟨S640000, .i32⟩
  | .hbm, ⟨12, _⟩ => ⟨S640000, .i32⟩
  | .hbm, ⟨13, _⟩ => ⟨S_, .i32⟩
  | .hbm, ⟨14, _⟩ => ⟨S640000, .i32⟩
  | .hbm, ⟨15, _⟩ => ⟨S640000, .i32⟩
  | .hbm, ⟨16, _⟩ => ⟨S_, .i32⟩
  | .hbm, ⟨17, _⟩ => ⟨S640000, .i32⟩
  | .hbm, ⟨18, _⟩ => ⟨S640000, .i1⟩
  | .hbm, ⟨19, _⟩ => ⟨S_, .i32⟩
  | .hbm, ⟨20, _⟩ => ⟨S640000, .i32⟩
  | .hbm, ⟨21, _⟩ => ⟨S640000, .i32⟩
  | .hbm, ⟨22, _⟩ => ⟨S640000, .i32⟩
  | .hbm, ⟨23, _⟩ => ⟨S640000x1, .i32⟩
  | .hbm, ⟨24, _⟩ => ⟨S640000x128, .bf16⟩
  | .hbm, ⟨25, _⟩ => ⟨S1x128, .f32⟩
  | .hbm, ⟨26, _⟩ => ⟨S640000x128, .f32⟩
  | .local _ .vmem, ⟨0, _⟩ => ⟨S10000x128, .f32⟩
  | .local _ .vmem, ⟨1, _⟩ => ⟨S128x128, .f32⟩
  | .local _ .vmem, ⟨2, _⟩ => ⟨S10000x128, .bf16⟩
  | .local _ .vmem, ⟨3, _⟩ => ⟨S6400x128, .bf16⟩
  | .local _ .vmem, ⟨4, _⟩ => ⟨S6400x128, .bf16⟩
  | .local _ .vmem, ⟨5, _⟩ => ⟨S6400x64, .f32⟩
  | .local _ .vmem, ⟨6, _⟩ => ⟨S6400x64, .f32⟩
  | .local _ .vmem, ⟨7, _⟩ => ⟨S64x128, .f32⟩
  | .local _ .vmem, ⟨8, _⟩ => ⟨S1x128, .f32⟩
  | .local _ .vmem, ⟨9, _⟩ => ⟨S6400x128, .f32⟩
  | .local _ .vmem, ⟨10, _⟩ => ⟨S6400x128, .f32⟩
  | _, _ => ⟨S10000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_c : Ref sig .tc := ⟨.hbm, 8, rfl⟩
abbrev main_c_0 : Ref sig .tc := ⟨.hbm, 9, rfl⟩
abbrev main_call0_v0 : Ref sig .tc := ⟨.hbm, 10, rfl⟩
abbrev main_call0_v1 : Ref sig .tc := ⟨.hbm, 11, rfl⟩
abbrev main_call0_v2 : Ref sig .tc := ⟨.hbm, 12, rfl⟩
abbrev main_call0_v3 : Ref sig .tc := ⟨.hbm, 13, rfl⟩
abbrev main_call0_v4 : Ref sig .tc := ⟨.hbm, 14, rfl⟩
abbrev main_v3 : Ref sig .tc := ⟨.hbm, 15, rfl⟩
abbrev main_c_1 : Ref sig .tc := ⟨.hbm, 16, rfl⟩
abbrev main_v4 : Ref sig .tc := ⟨.hbm, 17, rfl⟩
abbrev main_v5 : Ref sig .tc := ⟨.hbm, 18, rfl⟩
abbrev main_c_2 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc1_stg0_0 : Ref sig .tc := ⟨.vmem, 3, rfl⟩
abbrev cc1_stg0_1 : Ref sig .tc := ⟨.vmem, 4, rfl⟩
abbrev cc1_stg1_0 : Ref sig .tc := ⟨.vmem, 5, rfl⟩
abbrev cc1_stg1_1 : Ref sig .tc := ⟨.vmem, 6, rfl⟩
abbrev cc1_stg2_0 : Ref sig .tc := ⟨.vmem, 7, rfl⟩
abbrev cc1_stg3_0 : Ref sig .tc := ⟨.vmem, 8, rfl⟩
abbrev cc1_stg4_0 : Ref sig .tc := ⟨.vmem, 9, rfl⟩
abbrev cc1_stg4_1 : Ref sig .tc := ⟨.vmem, 10, rfl⟩
abbrev cc0_sem0_0 : DmaSem sig := 0
abbrev cc0_sem1_0 : DmaSem sig := 1
abbrev cc0_sem2_0 : DmaSem sig := 2
abbrev cc1_sem0_0 : DmaSem sig := 3
abbrev cc1_sem0_1 : DmaSem sig := 4
abbrev cc1_sem1_0 : DmaSem sig := 5
abbrev cc1_sem1_1 : DmaSem sig := 6
abbrev cc1_sem2_0 : DmaSem sig := 7
abbrev cc1_sem3_0 : DmaSem sig := 8
abbrev cc1_sem4_0 : DmaSem sig := 9
abbrev cc1_sem4_1 : DmaSem sig := 10

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S10000x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S10000x128 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev grid1 : Pipeline.Grid := ⟨1, ![100], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S6400x128 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S6400x64 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S64x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 2 → Memref sig .tc .vmem S6400x128 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

class Facts₀ : Prop where
  slices_S192x128_S128x128_0_0 : S192x128.Slices ![0, 0] S128x128
  slices_S192x128_S64x128_128_0 : S192x128.Slices ![128, 0] S64x128
  inb_S10000x128_S10000x128_0_0 : ∀ a, (![0, 0] : Fin 2 → Nat) a + S10000x128.size a ≤ S10000x128.size a
  h_S10000x128 : 0 < S10000x128.numel
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  shapeCasts_S128x128_S128x128 : S128x128.ShapeCasts S128x128
  packedbf16_S10000x128_S10000x128_0_0 : (Rect.unit (s := S10000x128) ![0, 0] S10000x128.size inb_S10000x128_S10000x128_0_0).PackedRows (EltTy.packing .bf16)
  bcast_S_S640000 : S_.BroadcastsInDim S640000 (![] : Fin 0 → Fin S640000.rank)
  bcast_S640000_S640000x1_0 : S640000.BroadcastsInDim S640000x1 (![0] : Fin 1 → Fin S640000x1.rank)
  shapeCasts_S128_S1x128 : S128.ShapeCasts S1x128
  inb_S6400x64_S6400x64_0_0 : ∀ a, (![0, 0] : Fin 2 → Nat) a + S6400x64.size a ≤ S6400x64.size a
  h_S6400x64 : 0 < S6400x64.numel
  inb_S64x128_S64x128_0_0 : ∀ a, (![0, 0] : Fin 2 → Nat) a + S64x128.size a ≤ S64x128.size a
  h_S64x128 : 0 < S64x128.numel
  shapeCasts_S64x128_S64x128 : S64x128.ShapeCasts S64x128
  inb_S6400x128_S6400x128_0_0 : ∀ a, (![0, 0] : Fin 2 → Nat) a + S6400x128.size a ≤ S6400x128.size a
  h_S6400x128 : 0 < S6400x128.numel
  shapeCasts_S6400x128_S6400x128 : S6400x128.ShapeCasts S6400x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S6400x128 : S1x128.Broadcasts S6400x128
  dot_S10000x128_S128x128_S10000x128_1_0_0_1_n_n_wf : DotDims.WF S10000x128 S128x128 S10000x128 [1] [0] [0] [1] [] []
  gather_S10000x128_S640000x1_S640000x128_1_0_n_n_0_1_1128_wf : GatherDims.WF S10000x128 S640000x1 S640000x128 [1] [0] [] [0] [] 1 ![1, 128]
  dot_S6400x64_S64x128_S6400x128_1_0_0_1_n_n_wf : DotDims.WF S6400x64 S64x128 S6400x128 [1] [0] [0] [1] [] []
  hrank0 : 0 < grid0.rank
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S10000x128.size a ≤ S10000x128.size a
  hwx0_0 : ∀ i : grid0.Coords, EltTy.bits .f32 = 32 ∨ (Rect.block (s := S10000x128) S10000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S10000x128.size a ≤ S10000x128.size a
  hwx0_2 : ∀ i : grid0.Coords, EltTy.bits .bf16 = 32 ∨ (Rect.block (s := S10000x128) S10000x128.size (cc0_transform_2 i) (hinb0_2 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S6400x128.size a ≤ S640000x128.size a
  hwx1_0 : ∀ i : grid1.Coords, EltTy.bits .bf16 = 32 ∨ (Rect.block (s := S640000x128) S6400x128.size (cc1_transform_0 i) (hinb1_0 i)).WholeWords (EltTy.packing .bf16)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S6400x64.size a ≤ S640000x64.size a
  hwx1_1 : ∀ i : grid1.Coords, EltTy.bits .f32 = 32 ∨ (Rect.block (s := S640000x64) S6400x64.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S64x128.size a ≤ S64x128.size a
  hwx1_2 : ∀ i : grid1.Coords, EltTy.bits .f32 = 32 ∨ (Rect.block (s := S64x128) S64x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x128.size a ≤ S1x128.size a
  hwx1_3 : ∀ i : grid1.Coords, EltTy.bits .f32 = 32 ∨ (Rect.block (s := S1x128) S1x128.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S6400x128.size a ≤ S640000x128.size a
  hwx1_4 : ∀ i : grid1.Coords, EltTy.bits .f32 = 32 ∨ (Rect.block (s := S640000x128) S6400x128.size (cc1_transform_4 i) (hinb1_4 i)).WholeWords (EltTy.packing .f32)

variable [Facts₀]

def dot_S10000x128_S128x128_S10000x128_1_0_0_1_n_n : DotDims S10000x128 S128x128 S10000x128 where
  lhsContracting := [1]
  rhsContracting := [0]
  lhsNonContracting := [0]
  rhsNonContracting := [1]
  lhsBatch := []
  rhsBatch := []
  wf := dot_S10000x128_S128x128_S10000x128_1_0_0_1_n_n_wf
def gather_S10000x128_S640000x1_S640000x128_1_0_n_n_0_1_1128 : GatherDims S10000x128 S640000x1 S640000x128 where
  offsetDims := [1]
  collapsedSliceDims := [0]
  operandBatchingDims := []
  startIndicesBatchingDims := []
  startIndexMap := [0]
  indexVectorDim := 1
  sliceSizes := ![1, 128]
  wf := gather_S10000x128_S640000x1_S640000x128_1_0_n_n_0_1_1128_wf
def dot_S6400x64_S64x128_S6400x128_1_0_0_1_n_n : DotDims S6400x64 S64x128 S6400x128 where
  lhsContracting := [1]
  rhsContracting := [0]
  lhsNonContracting := [0]
  rhsNonContracting := [1]
  lhsBatch := []
  rhsBatch := []
  wf := dot_S6400x64_S64x128_S6400x128_1_0_0_1_n_n_wf

abbrev win0_0 : Pipeline.Window sig grid0 :=
  Pipeline.Window.ofSpec (Memref.whole main_arg0) S10000x128.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpec (Memref.whole main_v0) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v2) S10000x128.size cc0_transform_2 reads0_2 true true 1 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v10) S6400x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg1) S6400x64.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v1) S64x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v11) S1x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v12) S6400x128.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

class Facts : Prop extends Facts₀ where

variable [Facts]
-- ==== ReferenceIdeal.lean ====
abbrev S10000x128 : Shape := ⟨2, ![10000, 128]⟩
abbrev S640000x64 : Shape := ⟨2, ![640000, 64]⟩
abbrev S640000 : Shape := ⟨1, ![640000]⟩
abbrev S192x128 : Shape := ⟨2, ![192, 128]⟩
abbrev S128 : Shape := ⟨1, ![128]⟩
abbrev S_ : Shape := ⟨0, ![]⟩
abbrev S640000x1 : Shape := ⟨2, ![640000, 1]⟩
abbrev S640000x128 : Shape := ⟨2, ![640000, 128]⟩
abbrev S640000x192 : Shape := ⟨2, ![640000, 192]⟩
abbrev S1x128 : Shape := ⟨2, ![1, 128]⟩

abbrev nBuf : Space → Nat
  | .hbm => 22
  | .vmem => 0
  | .smem => 0
  | _ => 0

abbrev bufTy : (tb : Table) → Fin (tcTables nBuf tb) → BufTy
  | .hbm, ⟨0, _⟩ => ⟨S10000x128, .f32⟩
  | .hbm, ⟨1, _⟩ => ⟨S640000x64, .f32⟩
  | .hbm, ⟨2, _⟩ => ⟨S640000, .i32⟩
  | .hbm, ⟨3, _⟩ => ⟨S192x128, .f32⟩
  | .hbm, ⟨4, _⟩ => ⟨S128, .f32⟩
  | .hbm, ⟨5, _⟩ => ⟨S_, .i32⟩
  | .hbm, ⟨6, _⟩ => ⟨S640000, .i32⟩
  | .hbm, ⟨7, _⟩ => ⟨S640000, .i1⟩
  | .hbm, ⟨8, _⟩ => ⟨S_, .i32⟩
  | .hbm, ⟨9, _⟩ => ⟨S640000, .i32⟩
  | .hbm, ⟨10, _⟩ => ⟨S640000, .i32⟩
  | .hbm, ⟨11, _⟩ => ⟨S640000, .i32⟩
  | .hbm, ⟨12, _⟩ => ⟨S640000x1, .i32⟩
  | .hbm, ⟨13, _⟩ => ⟨S640000x128, .f32⟩
  | .hbm, ⟨14, _⟩ => ⟨S640000x192, .f32⟩
  | .hbm, ⟨15, _⟩ => ⟨S640000x128, .f32⟩
  | .hbm, ⟨16, _⟩ => ⟨S1x128, .f32⟩
  | .hbm, ⟨17, _⟩ => ⟨S640000x128, .f32⟩
  | .hbm, ⟨18, _⟩ => ⟨S640000x128, .f32⟩
  | .hbm, ⟨19, _⟩ => ⟨S_, .f32⟩
  | .hbm, ⟨20, _⟩ => ⟨S640000x128, .f32⟩
  | .hbm, ⟨21, _⟩ => ⟨S640000x128, .f32⟩
  | _, _ => ⟨S10000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_c : Ref sig .tc := ⟨.hbm, 5, rfl⟩
abbrev main_v0 : Ref sig .tc := ⟨.hbm, 6, rfl⟩
abbrev main_v1 : Ref sig .tc := ⟨.hbm, 7, rfl⟩
abbrev main_c_0 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_call0_cst : Ref sig .tc := ⟨.hbm, 19, rfl⟩
abbrev main_call0_v0 : Ref sig .tc := ⟨.hbm, 20, rfl⟩
abbrev main_v12 : Ref sig .tc := ⟨.hbm, 21, rfl⟩

abbrev nD : Nat := 1
abbrev τ : Topo := Topo.v7x

variable {F : FTy → Type} [FloatOps F]

class Facts₀ : Prop where
  bcast_S_S640000 : S_.BroadcastsInDim S640000 (![] : Fin 0 → Fin S640000.rank)
  bcast_S640000_S640000x1_0 : S640000.BroadcastsInDim S640000x1 (![0] : Fin 1 → Fin S640000x1.rank)
  concatenates_S640000x128_S640000x64_S640000x192_d1 : Shape.Concatenates [S640000x128, S640000x64] S640000x192 1
  bcast_S128_S1x128_1 : S128.BroadcastsInDim S1x128 (![1] : Fin 1 → Fin S1x128.rank)
  bcast_S1x128_S640000x128_0_1 : S1x128.BroadcastsInDim S640000x128 (![0, 1] : Fin 2 → Fin S640000x128.rank)
  bcast_S_S640000x128 : S_.BroadcastsInDim S640000x128 (![] : Fin 0 → Fin S640000x128.rank)
  gather_S10000x128_S640000x1_S640000x128_1_0_n_n_0_1_1128_wf : GatherDims.WF S10000x128 S640000x1 S640000x128 [1] [0] [] [0] [] 1 ![1, 128]
  dot_S640000x192_S192x128_S640000x128_1_0_0_1_n_n_wf : DotDims.WF S640000x192 S192x128 S640000x128 [1] [0] [0] [1] [] []

variable [Facts₀]

def gather_S10000x128_S640000x1_S640000x128_1_0_n_n_0_1_1128 : GatherDims S10000x128 S640000x1 S640000x128 where
  offsetDims := [1]
  collapsedSliceDims := [0]
  operandBatchingDims := []
  startIndicesBatchingDims := []
  startIndexMap := [0]
  indexVectorDim := 1
  sliceSizes := ![1, 128]
  wf := gather_S10000x128_S640000x1_S640000x128_1_0_n_n_0_1_1128_wf
def dot_S640000x192_S192x128_S640000x128_1_0_0_1_n_n : DotDims S640000x192 S192x128 S640000x128 where
  lhsContracting := [1]
  rhsContracting := [0]
  lhsNonContracting := [0]
  rhsNonContracting := [1]
  lhsBatch := []
  rhsBatch := []
  wf := dot_S640000x192_S192x128_S640000x128_1_0_0_1_n_n_wf

class Facts : Prop extends Facts₀ where

variable [Facts]
-- ==== Proof.LibPlainRows.lean ====
/-
  Plain matrix products, a bias row, and the leaky rectifier, read one entry at a time at the ideal values.

  * A product of an m×k by a k×n matrix that contracts the left operand's last axis with the right operand's
    first, read at (a, b), is the sum over c of left (a, c) · right (c, b) — for the host's product and for a
    kernel's product accumulated into the zero splat alike (`dotGeneral_rows_apply`, `matmul_zero_rows_apply`).
    The dimension record is any one that EQUALS the plain record; at a literal record that equation is `rfl`.
  * A vector of n entries laid along every row of an m×n matrix, read at (p, q), is the vector's entry q: the
    kernel spells it as a broadcast of the vector's one-row cast (`rowCast_broadcast_apply`), the host as two
    broadcasts in dimensions (`rowBroadcast_apply`).
  * The leaky rectifier `h ↦ h` where the test holds, `slope · h` elsewhere, gives the same value whether the test
    is `h > 0` or `h ≥ 0`: the two tests differ at `h = 0` only, where `slope · 0 = 0 = h`. No finiteness is used:
    at `⊤` and `⊥` both tests agree.
-/
import Idealize.ShloMosaic.Lib.StackMember

noncomputable section

namespace Idealize.ShloMosaic.PlainRows

open Idealize.ShloMosaic Idealize.ShloMosaic.ValueIdx

/-! ## Products -/

/-- The host's product over a record equal to the plain one, at (a, b): the sum over the contracted coordinate. -/
theorem dotGeneral_rows_apply {m k n : Nat} {φ₁ φ₂ : FTy} (d : DotDims ⟨2, ![m, k]⟩ ⟨2, ![k, n]⟩ ⟨2, ![m, n]⟩)
    (hd : d = DotDims.plain m k n) (prec : Option ContractPrecision)
    (A : FVec Ideal ⟨2, ![m, k]⟩ φ₁) (B : FVec Ideal ⟨2, ![k, n]⟩ φ₂) (a : Fin m) (b : Fin n) :
    Host.dotGeneral d prec A B (ix2 a b) = ∑ c : Fin k, A (ix2 a c) * B (ix2 c b) := by
  subst hd
  exact StackMember.dotGeneral_plain_apply prec A B a b

/-- A kernel's product into the zero splat over such a record, at (a, b): the same sum. -/
theorem matmul_zero_rows_apply {m k n : Nat} {φ₁ φ₂ : FTy} (d : DotDims ⟨2, ![m, k]⟩ ⟨2, ![k, n]⟩ ⟨2, ![m, n]⟩)
    (hd : d = DotDims.plain m k n) (prec : Option ContractPrecision)
    (A : FVec Ideal ⟨2, ![m, k]⟩ φ₁) (B : FVec Ideal ⟨2, ![k, n]⟩ φ₂) (a : Fin m) (b : Fin n) :
    matmul d prec A B (constant ⟨2, ![m, n]⟩ .f32 0x00000000#32) (ix2 a b) = ∑ c : Fin k, A (ix2 a c) * B (ix2 c b) := by
  rw [matmul_zero_eq_dotGeneral]
  exact dotGeneral_rows_apply d hd prec A B a b

/-! ## A vector along every row -/

section Rows
variable {α : Type}

/-- The kernel's spelling: the vector cast to one row, broadcast down m rows; at (p, q) it is entry q. -/
theorem rowCast_broadcast_apply {m n : Nat} (x : (⟨1, ![n]⟩ : Shape).Idx → α)
    (h1 : (⟨1, ![n]⟩ : Shape).ShapeCasts ⟨2, ![1, n]⟩) (hb : (⟨2, ![1, n]⟩ : Shape).Broadcasts ⟨2, ![m, n]⟩)
    (p : Fin m) (q : Fin n) :
    broadcastTo ⟨2, ![m, n]⟩ (shapeCast ⟨2, ![1, n]⟩ x h1) hb (ix2 p q) = x (ix1 q) := by
  have e1 := broadcastTo_apply (shapeCast ⟨2, ![1, n]⟩ x h1) hb (ix2 p q) (ix2 (0 : Fin 1) q) (by
    intro a
    match a with
    | ⟨0, _⟩ => rfl
    | ⟨1, _⟩ =>
      show q.val = if n = 1 then 0 else q.val
      split
      · have := q.isLt; omega
      · rfl)
  have e2 := shapeCast_apply x h1 (ix2 (0 : Fin 1) q) (ix1 q) (by
    rw [Shape.rowMajor_val_two, Shape.rowMajor_val_one]; show q.val = 0 * n + q.val; omega)
  exact e1.trans e2

/-- The host's spelling: the vector broadcast along axis 1 into one row, that row broadcast down m rows; at
    (p, q) it is entry q. -/
theorem rowBroadcast_apply {m n : Nat} (x : (⟨1, ![n]⟩ : Shape).Idx → α)
    (hd : (⟨1, ![n]⟩ : Shape).BroadcastsInDim ⟨2, ![1, n]⟩ ![1])
    (hbc : (⟨2, ![1, n]⟩ : Shape).BroadcastsInDim ⟨2, ![m, n]⟩ ![0, 1]) (p : Fin m) (q : Fin n) :
    broadcastInDim ⟨2, ![m, n]⟩ ![0, 1] hbc (broadcastInDim ⟨2, ![1, n]⟩ ![1] hd x) (ix2 p q) = x (ix1 q) := by
  rw [broadcastInDim_oneRow_apply hbc _ p q]
  refine broadcastInDim_apply ![1] hd x (ix2 (0 : Fin 1) q) (ix1 q) ?_
  intro a
  match a with
  | ⟨0, _⟩ =>
    show q.val = if n = 1 then 0 else q.val
    split
    · have := q.isLt; omega
    · rfl

end Rows

/-! ## The leaky rectifier -/

/-- The leaky rectifier with the STRICT test: `h` above zero, `s · h` elsewhere. -/
def leaky (s h : EReal) : EReal := if 0 < h then h else s * h

/-- With the test `0 ≤ h` the value is the same: at `h = 0` the other branch is `s · 0 = 0`. -/
theorem leaky_of_le_test (s h : EReal) : (if 0 ≤ h then h else s * h) = leaky s h := by
  unfold leaky
  by_cases h0 : 0 < h
  · rw [if_pos h0, if_pos h0.le]
  · by_cases h1 : 0 ≤ h
    · have e : h = 0 := le_antisymm (not_lt.mp h0) h1
      rw [if_pos h1, if_neg h0, e, mul_zero]
    · rw [if_neg h1, if_neg h0]

/-- A select on the ordered comparison `h > z`, for a pattern `z` that denotes zero. -/
theorem select_ogt {φ : FTy} (z : BitVec φ.bits) (hz : Ideal.ofBits φ z = 0) (h a b : Ideal φ) :
    Scalar.select (FloatOps.cmpf .ogt h (Scalar.ofBits (F := Ideal) φ z)) a b = if 0 < h then a else b := by
  show Scalar.select (Ideal.cmp .ogt h (Ideal.ofBits φ z)) a b = _
  rw [hz]
  unfold Scalar.select Ideal.cmp
  by_cases h0 : (0 : EReal) < h <;> simp [h0]

/-- A select on the ordered comparison `h ≥ z`, for a pattern `z` that denotes zero. -/
theorem select_oge {φ : FTy} (z : BitVec φ.bits) (hz : Ideal.ofBits φ z = 0) (h a b : Ideal φ) :
    Scalar.select (FloatOps.cmpf .oge h (Scalar.ofBits (F := Ideal) φ z)) a b = if 0 ≤ h then a else b := by
  show Scalar.select (Ideal.cmp .oge h (Ideal.ofBits φ z)) a b = _
  rw [hz]
  unfold Scalar.select Ideal.cmp
  by_cases h0 : (0 : EReal) ≤ h <;> simp [h0]

/-- The kernel's rectifier at one entry: a select on `h > 0` between `h` and `s · h`. -/
theorem select_ogt_leaky (s : BitVec 32) (h : Ideal .f32) :
    Scalar.select (FloatOps.cmpf .ogt h (Scalar.ofBits (F := Ideal) .f32 0x00000000#32)) h
      (Scalar.ofBits (F := Ideal) .f32 s * h) = leaky (Ideal.ofBits .f32 s) h :=
  select_ogt _ Ideal.ofBits_zero_f32 h _ _

/-- The host's rectifier at one entry: a select on `h ≥ 0` between `h` and `s · h`: the same value. -/
theorem select_oge_leaky (s : BitVec 32) (h : Ideal .f32) :
    Scalar.select (FloatOps.cmpf .oge h (Scalar.ofBits (F := Ideal) .f32 0x00000000#32)) h
      (Scalar.ofBits (F := Ideal) .f32 s * h) = leaky (Ideal.ofBits .f32 s) h :=
  (select_oge _ Ideal.ofBits_zero_f32 h _ _).trans (leaky_of_le_test _ h)

end Idealize.ShloMosaic.PlainRows

end
-- ==== Proof.KernelBodies.lean ====
/-
  The two kernel bodies, read one entry at a time at the ideal values, where a change of float format is the identity.

  * The node projection stores, at `(n, d)`, row `n` of its node block against column `d` of its weight block:
    a product accumulated into the zero splat is the plain sum over the contracted coordinate.
  * The combining body stores, at `(p, d)`, the rectified sum "gathered entry + (edge row `p` against weight column
    `d`) + bias entry `d`", the bias being one row laid along every row of the block.
-/
import proofs.«425106_j41532333752513_3_alg».proof.Proof.Gen.KernelIdeal.Skeleton
import proofs.«425106_j41532333752513_3_alg».proof.Proof.LibPlainRows
import Idealize.ShloMosaic.Lib.Pipeline.Value

noncomputable section

namespace Cert.KernelBodies

open Cert.KernelIdeal Cert.KernelIdeal.Gen
open Idealize.ShloMosaic Idealize.ShloMosaic.ValueIdx

/-- The node projection at `(n, d)`: `Σ_k node (n, k) · weight (k, d)`. -/
theorem proj_apply (v0 : FVec Ideal S10000x128 .f32) (v2 : FVec Ideal S128x128 .f32) (n : Fin 10000) (d : Fin 128) :
    k0_pay1 (F := Ideal) v0 v2 (ix2 n d) = ∑ k : Fin 128, v0 (ix2 n k) * v2 (ix2 k d) := by
  unfold k0_pay1
  show truncf .bf16 (matmul dot_S10000x128_S128x128_S10000x128_1_0_0_1_n_n none (truncf .bf16 v0 _)
    (truncf .bf16 (shapeCast S128x128 v2 _) _) (constant S10000x128 .f32 0x00000000#32)) _ (ix2 n d) = _
  rw [truncf_apply, shapeCast_self,
    PlainRows.matmul_zero_rows_apply dot_S10000x128_S128x128_S10000x128_1_0_0_1_n_n rfl none _ _ n d]
  rfl

/-- The bias row laid along every row of the block, at `(p, d)`, is the row's entry `d`. -/
theorem bias_row_apply (v10 : FVec Ideal S1x128 .f32) (p : Fin 6400) (d : Fin 128) :
    broadcastTo S6400x128 v10 broadcasts_S1x128_S6400x128 (ix2 p d) = v10 (ix2 (0 : Fin 1) d) :=
  broadcastTo_apply v10 broadcasts_S1x128_S6400x128 (ix2 p d) (ix2 (0 : Fin 1) d) (by
    intro a
    match a with
    | ⟨0, _⟩ => rfl
    | ⟨1, _⟩ => rfl)

/-- The combining body at `(p, d)`: `max ((gathered (p, d) + Σ_k edge (p, k) · weight (k, d)) + bias (0, d), 0)`. -/
theorem combine_apply (v0 : FVec Ideal S6400x64 .f32) (v2 : FVec Ideal S64x128 .f32) (v6 : FVec Ideal S6400x128 .bf16)
    (v10 : FVec Ideal S1x128 .f32) (p : Fin 6400) (d : Fin 128) :
    k1_pay1 (F := Ideal) v0 v2 v6 v10 (ix2 p d)
      = max (((v6 (ix2 p d) : EReal) + ∑ k : Fin 64, (v0 (ix2 p k) : EReal) * v2 (ix2 k d)) + v10 (ix2 (0 : Fin 1) d)) 0 := by
  unfold k1_pay1
  show maximumf (addf (addf (extf .f32 (shapeCast S6400x128 v6 _) _)
        (matmul dot_S6400x64_S64x128_S6400x128_1_0_0_1_n_n none (truncf .bf16 v0 _) (truncf .bf16 (shapeCast S64x128 v2 _) _)
          (constant S6400x128 .f32 0x00000000#32)))
      (broadcastTo S6400x128 (shapeCast S1x128 v10 _) _))
    (broadcast S6400x128 (Scalar.ofBits .f32 0x00000000#32)) (ix2 p d) = _
  rw [maximumf_apply, addf_apply, addf_apply, extf_apply, broadcast_apply, shapeCast_self, shapeCast_self, shapeCast_self,
    bias_row_apply, PlainRows.matmul_zero_rows_apply dot_S6400x64_S64x128_S6400x128_1_0_0_1_n_n rfl none _ _ p d]
  show max (((v6 (ix2 p d) : EReal) + ∑ k : Fin 64, (v0 (ix2 p k) : EReal) * v2 (ix2 k d)) + v10 (ix2 (0 : Fin 1) d))
    (Ideal.ofBits .f32 0x00000000#32) = _
  rw [Ideal.ofBits_zero_f32]

end Cert.KernelBodies

end
-- ==== Proof.NodeRegion.lean ====
/-
  What the first region leaves in its result array: the projected node table.

  The region has ONE grid point and every window's block is its whole array, read through zero offsets. So the point's
  node block is the node table as the region finds it, its weight block the 128×128 weight slice as the region finds
  it, and what the point writes back covers the result array: entry `(n, d)` is row `n` of the node table against
  column `d` of the weight slice.
-/
import proofs.«425106_j41532333752513_3_alg».proof.Proof.Gen.KernelIdeal.Frame
import proofs.«425106_j41532333752513_3_alg».proof.Proof.KernelBodies

set_option maxRecDepth 16384

noncomputable section

namespace Cert.NodeRegion

open Cert.KernelIdeal Cert.KernelIdeal.Gen Cert.KernelBodies
open Idealize.ShloMosaic Idealize.ShloMosaic.TcCoe Idealize.SL.Sem Idealize.ShloMosaic.ValueIdx
open Idealize.ShloMosaic.Pipeline (Dat)

variable (V : (c : Dev nD) → (b : Ref sig .tc) → Buf (Elt Ideal) ((c : Thread nD τ).loc b))

theorem hz : (![0, 0] : Fin 2 → Nat) = fun _ => 0 := funext fun a => by fin_cases a <;> rfl

/-- The node table as the region finds it. -/
abbrev nodeArr (c : Dev nD) : FVec Ideal S10000x128 .f32 := V c main_arg0
/-- The 128×128 weight slice as the region finds it. -/
abbrev wsrcArr (c : Dev nD) : FVec Ideal S128x128 .f32 := V c main_v0
/-- The point's node block and weight block. -/
abbrev nodeBlk (c : Dev nD) (t : Fin cfg0.N) : FVec Ideal S10000x128 .f32 := iblk0 V c 0 t
abbrev wsrcBlk (c : Dev nD) (t : Fin cfg0.N) : FVec Ideal S128x128 .f32 := iblk0 V c 1 t

/-- The projected node table at `(n, d)`. -/
def projAt (c : Dev nD) (n : Fin 10000) (d : Fin 128) : EReal :=
  ∑ k : Fin 128, (nodeArr V c (ix2 n k) : EReal) * wsrcArr V c (ix2 k d)

/-- The projected node table. -/
def projArr (c : Dev nD) : FVec Ideal S10000x128 .bf16 := fun j => projAt V c (j 0) (j 1)

/-- The only point's index maps are all zero. -/
theorem idx0 : win0_0.index t0_0 0 = 0 ∧ win0_0.index t0_0 1 = 0 ∧ win0_1.index t0_0 0 = 0 ∧ win0_1.index t0_0 1 = 0
    ∧ win0_2.index t0_0 0 = 0 ∧ win0_2.index t0_0 1 = 0 := by decide

/-- The node block is the node table. -/
theorem nodeBlk_apply (c : Dev nD) (n : Fin 10000) (k : Fin 128) :
    nodeBlk V c t0_0 (ix2 n k) = nodeArr V c (ix2 n k) := by
  show ((cfg0.win 0).blk t0_0).view.read (Elt Ideal) (V c (Pipeline.arrRef spec0 0)) (ix2 n k) = _
  rw [View.read_apply]
  show V c main_arg0 _ = V c main_arg0 _
  congr 1
  funext a
  apply Fin.ext
  match a with
  | ⟨0, _⟩ => show win0_0.index t0_0 0 * 10000 + 1 * n.val = n.val; rw [idx0.1]; omega
  | ⟨1, _⟩ => show win0_0.index t0_0 1 * 128 + 1 * k.val = k.val; rw [idx0.2.1]; omega

/-- The weight block is the weight slice. -/
theorem wsrcBlk_apply (c : Dev nD) (k : Fin 128) (d : Fin 128) :
    wsrcBlk V c t0_0 (ix2 k d) = wsrcArr V c (ix2 k d) := by
  show ((cfg0.win 1).blk t0_0).view.read (Elt Ideal) (V c (Pipeline.arrRef spec0 1)) (ix2 k d) = _
  rw [View.read_apply]
  show V c main_v0 _ = V c main_v0 _
  congr 1
  funext a
  apply Fin.ext
  match a with
  | ⟨0, _⟩ => show win0_1.index t0_0 0 * 128 + 1 * k.val = k.val; rw [idx0.2.2.1]; omega
  | ⟨1, _⟩ => show win0_1.index t0_0 1 * 128 + 1 * d.val = d.val; rw [idx0.2.2.2.1]; omega

/-- What the point writes back is its block of the projected node table. -/
theorem proj_flushed (c : Dev nD) (t : Fin cfg0.N) :
    (dat0 V c).flushed 2 t = ((cfg0.win 2).blk t).view.read (Elt Ideal) (projArr V c) := by
  obtain rfl : t = t0_0 := fin_N0 t
  show (cfg0.win 2).cut (grid0.coords t0_0) ((dat0 V c).after 2 t0_0) = _
  rw [after0_2]
  unfold out0_2
  rw [View.canon_unit_zero hz]
  simp only [View.ld_unit_zero (S := S10000x128) hz, View.ld_unit_zero (S := S128x128) hz]
  funext y
  obtain ⟨n, d, rfl⟩ : ∃ (n : Fin 10000) (d : Fin 128), y = ix2 n d := ⟨y 0, y 1, eq_ix2 y⟩
  refine (proj_apply (nodeBlk V c t0_0) (wsrcBlk V c t0_0) n d).trans ?_
  rw [View.read_apply]
  have he : ((cfg0.win 2).blk t0_0).view.emb (ix2 n d) = ix2 n d := by
    funext a
    apply Fin.ext
    match a with
    | ⟨0, _⟩ => show win0_2.index t0_0 0 * 10000 + 1 * n.val = n.val; rw [idx0.2.2.2.2.1]; omega
    | ⟨1, _⟩ => show win0_2.index t0_0 1 * 128 + 1 * d.val = d.val; rw [idx0.2.2.2.2.2]; omega
  rw [he]
  show _ = projAt V c n d
  unfold projAt
  refine Finset.sum_congr rfl fun k _ => ?_
  rw [nodeBlk_apply, wsrcBlk_apply]

/-- The only point's block is the whole result array. -/
theorem proj_cover (i : S10000x128.Idx) :
    ∃ t : Fin cfg0.N, (cfg0.win 2).flush t = true ∧ i ∈ ((cfg0.win 2).blk t).view.set := by
  refine ⟨t0_0, flush0_2 t0_0, ?_⟩
  show i ∈ ((View.whole main_v2).slice (win0_2.rect t0_0)).set
  rw [View.set_slice_whole, Rect.mem_set_unit]
  intro a
  have h0 : (i 0).val < 10000 := (i 0).isLt
  have h1 : (i 1).val < 128 := (i 1).isLt
  match a with
  | ⟨0, _⟩ =>
    show win0_2.index t0_0 0 * 10000 ≤ (i 0).val ∧ (i 0).val < win0_2.index t0_0 0 * 10000 + 10000
    rw [idx0.2.2.2.2.1]; omega
  | ⟨1, _⟩ =>
    show win0_2.index t0_0 1 * 128 ≤ (i 1).val ∧ (i 1).val < win0_2.index t0_0 1 * 128 + 128
    rw [idx0.2.2.2.2.2]; omega

/-- THE RESULT ARRAY of the first region: the projected node table. -/
theorem proj_array (c : Dev nD) : (dat0 V c).arrAt 2 cfg0.N = projArr V c :=
  (dat0 V c).arrAt_eq_of_cover 2 (projArr V c) (fun t _ => proj_flushed V c t) proj_cover

end Cert.NodeRegion

end
-- ==== Proof.EdgeRegion.lean ====
/-
  What the second region leaves in its result array.

  The grid has 100 points; point `t` works on edges `6400 t … 6400 t + 6399`. Its gathered block and its edge block
  are those rows of the gathered array and of the edge array as the region finds them; its weight block and its bias
  block are the whole 64×128 weight slice and the whole bias row, at every point. The body stores, at row `p` and
  feature `d` of the block, the rectified sum "gathered entry + (edge row against weight column) + bias entry"; the
  block is written back to the same rows of the result array, and the 100 blocks tile it (edge `e` lies in the block of
  point `e / 6400`). So the result array is that rectified sum at every `(e, d)`.
-/
import proofs.«425106_j41532333752513_3_alg».proof.Proof.Gen.KernelIdeal.Frame
import proofs.«425106_j41532333752513_3_alg».proof.Proof.KernelBodies

set_option maxRecDepth 16384

noncomputable section

namespace Cert.EdgeRegion

open Cert.KernelIdeal Cert.KernelIdeal.Gen Cert.KernelBodies
open Idealize.ShloMosaic Idealize.ShloMosaic.TcCoe Idealize.SL.Sem Idealize.ShloMosaic.ValueIdx
open Idealize.ShloMosaic.Pipeline (Dat)

variable (V : (c : Dev nD) → (b : Ref sig .tc) → Buf (Elt Ideal) ((c : Thread nD τ).loc b))

theorem hz : (![0, 0] : Fin 2 → Nat) = fun _ => 0 := funext fun a => by fin_cases a <;> rfl

/-- The gathered array, the edge array, the 64×128 weight slice and the bias row, as the region finds them. -/
abbrev srcArr (c : Dev nD) : FVec Ideal S640000x128 .bf16 := V c main_v10
abbrev edgeArr (c : Dev nD) : FVec Ideal S640000x64 .f32 := V c main_arg1
abbrev wedgeArr (c : Dev nD) : FVec Ideal S64x128 .f32 := V c main_v1
abbrev biasArr (c : Dev nD) : FVec Ideal S1x128 .f32 := V c main_v11
/-- Point `t`'s four input blocks. -/
abbrev srcBlk (c : Dev nD) (t : Fin cfg1.N) : FVec Ideal S6400x128 .bf16 := iblk1 V c 0 t
abbrev edgeBlk (c : Dev nD) (t : Fin cfg1.N) : FVec Ideal S6400x64 .f32 := iblk1 V c 1 t
abbrev wedgeBlk (c : Dev nD) (t : Fin cfg1.N) : FVec Ideal S64x128 .f32 := iblk1 V c 2 t
abbrev biasBlk (c : Dev nD) (t : Fin cfg1.N) : FVec Ideal S1x128 .f32 := iblk1 V c 3 t

/-- The region's result at edge `e`, feature `d`. -/
def combineAt (c : Dev nD) (e : Fin 640000) (d : Fin 128) : EReal :=
  max (((srcArr V c (ix2 e d) : EReal) + ∑ k : Fin 64, (edgeArr V c (ix2 e k) : EReal) * wedgeArr V c (ix2 k d))
    + biasArr V c (ix2 (0 : Fin 1) d)) 0

/-- The region's result array. -/
def combineArr (c : Dev nD) : FVec Ideal S640000x128 .f32 := fun j => combineAt V c (j 0) (j 1)

/-- Row `p` of point `t`'s block is edge `6400 t + p`. -/
def edgeOf (t : Fin cfg1.N) (p : Fin 6400) : Fin 640000 :=
  ⟨t.val * 6400 + p.val, by have := t.isLt; have h : cfg1.N = 100 := N_1; have := p.isLt; omega⟩

/-- The printed index maps over the grid: the gathered, edge and result windows move with the point along the rows;
    the weight and bias windows stay at block 0. -/
theorem idx1 : ∀ t : Fin cfg1.N, win1_0.index t 0 = t.val ∧ win1_0.index t 1 = 0
    ∧ win1_1.index t 0 = t.val ∧ win1_1.index t 1 = 0
    ∧ win1_2.index t 0 = 0 ∧ win1_2.index t 1 = 0
    ∧ win1_3.index t 0 = 0 ∧ win1_3.index t 1 = 0
    ∧ win1_4.index t 0 = t.val ∧ win1_4.index t 1 = 0 :=
  (by decide +kernel : ∀ t : Fin grid1.N, _)

/-- The gathered block is rows `6400 t …` of the gathered array. -/
theorem srcBlk_apply (c : Dev nD) (t : Fin cfg1.N) (p : Fin 6400) (d : Fin 128) :
    srcBlk V c t (ix2 p d) = srcArr V c (ix2 (edgeOf t p) d) := by
  show ((cfg1.win 0).blk t).view.read (Elt Ideal) (V c (Pipeline.arrRef spec1 0)) (ix2 p d) = _
  rw [View.read_apply]
  show V c main_v10 _ = V c main_v10 _
  congr 1
  funext a
  apply Fin.ext
  obtain ⟨e0, e1, -⟩ := idx1 t
  match a with
  | ⟨0, _⟩ => show win1_0.index t 0 * 6400 + 1 * p.val = t.val * 6400 + p.val; rw [e0]; omega
  | ⟨1, _⟩ => show win1_0.index t 1 * 128 + 1 * d.val = d.val; rw [e1]; omega

/-- The edge block is rows `6400 t …` of the edge array. -/
theorem edgeBlk_apply (c : Dev nD) (t : Fin cfg1.N) (p : Fin 6400) (k : Fin 64) :
    edgeBlk V c t (ix2 p k) = edgeArr V c (ix2 (edgeOf t p) k) := by
  show ((cfg1.win 1).blk t).view.read (Elt Ideal) (V c (Pipeline.arrRef spec1 1)) (ix2 p k) = _
  rw [View.read_apply]
  show V c main_arg1 _ = V c main_arg1 _
  congr 1
  funext a
  apply Fin.ext
  obtain ⟨-, -, e0, e1, -⟩ := idx1 t
  match a with
  | ⟨0, _⟩ => show win1_1.index t 0 * 6400 + 1 * p.val = t.val * 6400 + p.val; rw [e0]; omega
  | ⟨1, _⟩ => show win1_1.index t 1 * 64 + 1 * k.val = k.val; rw [e1]; omega

/-- The weight block is the whole weight slice. -/
theorem wedgeBlk_apply (c : Dev nD) (t : Fin cfg1.N) (k : Fin 64) (d : Fin 128) :
    wedgeBlk V c t (ix2 k d) = wedgeArr V c (ix2 k d) := by
  show ((cfg1.win 2).blk t).view.read (Elt Ideal) (V c (Pipeline.arrRef spec1 2)) (ix2 k d) = _
  rw [View.read_apply]
  show V c main_v1 _ = V c main_v1 _
  congr 1
  funext a
  apply Fin.ext
  obtain ⟨-, -, -, -, e0, e1, -⟩ := idx1 t
  match a with
  | ⟨0, _⟩ => show win1_2.index t 0 * 64 + 1 * k.val = k.val; rw [e0]; omega
  | ⟨1, _⟩ => show win1_2.index t 1 * 128 + 1 * d.val = d.val; rw [e1]; omega

/-- The bias block is the whole bias row. -/
theorem biasBlk_apply (c : Dev nD) (t : Fin cfg1.N) (d : Fin 128) :
    biasBlk V c t (ix2 (0 : Fin 1) d) = biasArr V c (ix2 (0 : Fin 1) d) := by
  show ((cfg1.win 3).blk t).view.read (Elt Ideal) (V c (Pipeline.arrRef spec1 3)) (ix2 (0 : Fin 1) d) = _
  rw [View.read_apply]
  show V c main_v11 _ = V c main_v11 _
  congr 1
  funext a
  apply Fin.ext
  obtain ⟨-, -, -, -, -, -, e0, e1, -⟩ := idx1 t
  match a with
  | ⟨0, _⟩ => show win1_3.index t 0 * 1 + 1 * 0 = 0; rw [e0]
  | ⟨1, _⟩ => show win1_3.index t 1 * 128 + 1 * d.val = d.val; rw [e1]; omega

/-- What point `t` writes back is its block of the result array. -/
theorem combine_flushed (c : Dev nD) (t : Fin cfg1.N) :
    (dat1 V c).flushed 4 t = ((cfg1.win 4).blk t).view.read (Elt Ideal) (combineArr V c) := by
  show (cfg1.win 4).cut (grid1.coords t) ((dat1 V c).after 4 t) = _
  rw [after1_4]
  unfold out1_4
  rw [View.canon_unit_zero hz]
  simp only [View.ld_unit_zero (S := S6400x64) hz, View.ld_unit_zero (S := S64x128) hz,
    View.ld_unit_zero (S := S6400x128) hz, View.ld_unit_zero (S := S1x128) hz]
  funext y
  obtain ⟨p, d, rfl⟩ : ∃ (p : Fin 6400) (d : Fin 128), y = ix2 p d := ⟨y 0, y 1, eq_ix2 y⟩
  refine (combine_apply (edgeBlk V c t) (wedgeBlk V c t) (srcBlk V c t) (biasBlk V c t) p d).trans ?_
  rw [View.read_apply]
  have he : ((cfg1.win 4).blk t).view.emb (ix2 p d) = ix2 (edgeOf t p) d := by
    funext a
    apply Fin.ext
    obtain ⟨-, -, -, -, -, -, -, -, e0, e1⟩ := idx1 t
    match a with
    | ⟨0, _⟩ => show win1_4.index t 0 * 6400 + 1 * p.val = t.val * 6400 + p.val; rw [e0]; omega
    | ⟨1, _⟩ => show win1_4.index t 1 * 128 + 1 * d.val = d.val; rw [e1]; omega
  rw [he]
  show _ = combineAt V c (edgeOf t p) d
  unfold combineAt
  rw [srcBlk_apply, biasBlk_apply]
  simp only [edgeBlk_apply, wedgeBlk_apply]

/-- The 100 blocks tile the result array: edge `e` lies in the block of point `e / 6400`. -/
theorem combine_cover (i : S640000x128.Idx) :
    ∃ t : Fin cfg1.N, (cfg1.win 4).flush t = true ∧ i ∈ ((cfg1.win 4).blk t).view.set := by
  have h0 : (i 0).val < 640000 := (i 0).isLt
  have h1 : (i 1).val < 128 := (i 1).isLt
  have hN : cfg1.N = 100 := N_1
  let t : Fin cfg1.N := ⟨(i 0).val / 6400, by rw [hN]; omega⟩
  refine ⟨t, flush1_4 t, ?_⟩
  show i ∈ ((View.whole main_v12).slice (win1_4.rect t)).set
  rw [View.set_slice_whole, Rect.mem_set_unit]
  obtain ⟨-, -, -, -, -, -, -, -, e0, e1⟩ := idx1 t
  have ht : t.val = (i 0).val / 6400 := rfl
  intro a
  match a with
  | ⟨0, _⟩ =>
    show win1_4.index t 0 * 6400 ≤ (i 0).val ∧ (i 0).val < win1_4.index t 0 * 6400 + 6400
    rw [e0, ht]; omega
  | ⟨1, _⟩ =>
    show win1_4.index t 1 * 128 ≤ (i 1).val ∧ (i 1).val < win1_4.index t 1 * 128 + 128
    rw [e1]; omega

/-- THE RESULT ARRAY of the second region. -/
theorem combine_array (c : Dev nD) : (dat1 V c).arrAt 4 cfg1.N = combineArr V c :=
  (dat1 V c).arrAt_eq_of_cover 4 (combineArr V c) (fun t _ => combine_flushed V c t) combine_cover

end Cert.EdgeRegion

end
-- ==== Proof.LibGatherRows.lean ====
/-
  A GATHER OF WHOLE ROWS, READ AT AN INDEX.

  A gather of an operand `[N, K]` at start indices `[E, 1]` with offset axis 1, collapsed operand axis 0, start index map
  `[0]`, the index vector on axis 1 of the start indices and slices `[1, K]` produces a result `[E, K]`. Its operand index
  for the result index `(e, k)` is, axis by axis, "clamped start + batching coordinate + offset coordinate":

    * on axis 0, which is in the start index map, the start is the word `idx (e, 0)` read signed, as a natural number,
      clamped to `N − 1` (the size `N` minus the slice size `1`); there is no batching axis, and axis 0 is collapsed, so
      the other two summands are `0`;
    * on axis 1, which is not in the start index map, the start is `0`; there is no batching axis; axis 1 is the only kept
      operand axis, it is read by the only offset axis of the result, axis 1, so the offset coordinate is `k`.

  Hence the result at `(e, k)` is the operand at `(min (idx (e, 0)).toInt.toNat (N − 1), k)`.
-/
import Idealize.ShloMosaic.PureOps.Ideal
import Idealize.ShloMosaic.Lib.ValueIdx

noncomputable section

open Idealize.ShloMosaic Idealize.ShloMosaic.ValueIdx

namespace Cert.LibGatherRows

/-- The dimension numbers of a row gather: operand `[N, K]`, one start-index word per result row in `[E, 1]`, result
    `[E, K]`; offset axis 1, collapsed operand axis 0, start indices for operand axis 0, the index vector on the start
    indices' axis 1, slices of one whole row. -/
abbrev rowsDims {N K E : Nat}
    (wf : GatherDims.WF (⟨2, ![N, K]⟩ : Shape) (⟨2, ![E, 1]⟩ : Shape) (⟨2, ![E, K]⟩ : Shape) [1] [0] [] [0] [] 1 ![1, K]) :
    GatherDims (⟨2, ![N, K]⟩ : Shape) (⟨2, ![E, 1]⟩ : Shape) (⟨2, ![E, K]⟩ : Shape) where
  offsetDims := [1]
  collapsedSliceDims := [0]
  operandBatchingDims := []
  startIndicesBatchingDims := []
  startIndexMap := [0]
  indexVectorDim := 1
  sliceSizes := ![1, K]
  wf := wf

/-- The start-indices index at which the result index `(e, k)` reads the only component of its start index is `(e, 0)`:
    the batch coordinate `e` on axis 0 and the component number `0` on the index vector's axis 1. -/
theorem rows_siIdx {N K E : Nat}
    (wf : GatherDims.WF (⟨2, ![N, K]⟩ : Shape) (⟨2, ![E, 1]⟩ : Shape) (⟨2, ![E, K]⟩ : Shape) [1] [0] [] [0] [] 1 ![1, K])
    (e : Fin E) (k : Fin K) (h : List.idxOf (0 : Fin 2) (rowsDims wf).startIndexMap < (rowsDims wf).startIndexMap.length) :
    (rowsDims wf).siIdx (ix2 e k) ⟨List.idxOf (0 : Fin 2) (rowsDims wf).startIndexMap, h⟩ = ix2 e (0 : Fin 1) := by
  funext b
  refine Fin.ext ?_
  match b with
  | ⟨0, _⟩ => rfl
  | ⟨1, _⟩ => rfl

/-- On operand axis 0 the row gather's operand index for `(e, k)` is the start-index word of `e` read signed and clamped
    to `N − 1`: axis 0 is in the start index map with slice size 1, it is no batching axis, and it is collapsed. -/
theorem rows_coord0 {N K E w : Nat}
    (wf : GatherDims.WF (⟨2, ![N, K]⟩ : Shape) (⟨2, ![E, 1]⟩ : Shape) (⟨2, ![E, K]⟩ : Shape) [1] [0] [] [0] [] 1 ![1, K])
    (idx : IVec (⟨2, ![E, 1]⟩ : Shape) w) (e : Fin E) (k : Fin K) :
    (rowsDims wf).start (ix2 e k) idx 0 + (rowsDims wf).batchCoord (ix2 e k) 0 + (rowsDims wf).offCoord (ix2 e k) 0
      = min (idx (ix2 e (0 : Fin 1))).toInt.toNat (N - 1) := by
  rw [GatherDims.batchCoord_eq_zero _ _ _ List.not_mem_nil,
    GatherDims.offCoord_eq_zero _ _ _ (fun h => ((GatherDims.mem_sKept _ _).mp h).1 (List.mem_singleton.mpr rfl))]
  simp only [Nat.add_zero]
  unfold GatherDims.start
  rw [dif_pos (show (0 : Fin 2) ∈ (rowsDims wf).startIndexMap from List.mem_singleton.mpr rfl)]
  rw [rows_siIdx wf e k]
  rfl

/-- On operand axis 1 the row gather's operand index for `(e, k)` is `k`: axis 1 is not in the start index map (start 0),
    it is no batching axis, and it is the kept operand axis the result's offset axis 1 reads. -/
theorem rows_coord1 {N K E w : Nat}
    (wf : GatherDims.WF (⟨2, ![N, K]⟩ : Shape) (⟨2, ![E, 1]⟩ : Shape) (⟨2, ![E, K]⟩ : Shape) [1] [0] [] [0] [] 1 ![1, K])
    (idx : IVec (⟨2, ![E, 1]⟩ : Shape) w) (e : Fin E) (k : Fin K) :
    (rowsDims wf).start (ix2 e k) idx 1 + (rowsDims wf).batchCoord (ix2 e k) 1 + (rowsDims wf).offCoord (ix2 e k) 1
      = k.val := by
  rw [GatherDims.batchCoord_eq_zero _ _ _ List.not_mem_nil]
  have hs : (rowsDims wf).start (ix2 e k) idx 1 = 0 := by
    unfold GatherDims.start
    rw [dif_neg (show ¬ (1 : Fin 2) ∈ (rowsDims wf).startIndexMap from (by decide : (1 : Fin 2) ∉ ([0] : List (Fin 2))))]
  rw [hs]
  simp only [Nat.add_zero, Nat.zero_add]
  unfold GatherDims.offCoord
  rw [dif_pos (show (1 : Fin 2) ∈ (rowsDims wf).sKept from
    (GatherDims.mem_sKept _ _).mpr ⟨(by decide : (1 : Fin 2) ∉ ([0] : List (Fin 2))), List.not_mem_nil⟩)]
  rfl

/-- THE ROW GATHER READ AT `(e, k)`: the operand's row at the start-index word of `e`, read signed and clamped into
    `[0, N − 1]`, at column `k`. -/
theorem gather_rows_apply {α : Type} {N K E w : Nat} (hN : 0 < N)
    (wf : GatherDims.WF (⟨2, ![N, K]⟩ : Shape) (⟨2, ![E, 1]⟩ : Shape) (⟨2, ![E, K]⟩ : Shape) [1] [0] [] [0] [] 1 ![1, K])
    (x : (⟨2, ![N, K]⟩ : Shape).Idx → α) (idx : IVec (⟨2, ![E, 1]⟩ : Shape) w) (e : Fin E) (k : Fin K) :
    Host.gather (rowsDims wf) x idx (ix2 e k)
      = x (ix2 (⟨min (idx (ix2 e (0 : Fin 1))).toInt.toNat (N - 1), by omega⟩ : Fin N) k) := by
  unfold Host.gather
  congr 1
  funext a
  refine Fin.ext ?_
  match a with
  | ⟨0, _⟩ => exact rows_coord0 wf idx e k
  | ⟨1, _⟩ => exact rows_coord1 wf idx e k

end Cert.LibGatherRows

end
-- ==== Proof.EdgeLayer.lean ====
/-
  The edge layer as ONE function of its five arrays, and the two facts about index words that make both programs
  compute it.

  For an edge `e` and an output feature `d`, with `r e` the table row the index word of `e` selects,

      out (e, d) = max ( ( Σ_{k<128} atom (r e, k) · W (k, d)  +  Σ_{k<64} edge (e, k) · W (128 + k, d) ) + b d , 0 ).

  A row gather reads its index word as a signed integer, sends a negative one to 0 and caps it at the last row, 9999
  (`rowOf`). One program first clips the word into [0, 9999] and then offers a negative word the wrap-around
  `+ 10000`; the other offers the wrap-around to the word as given. For a word that is not negative neither wrap-around
  is taken, and clipping before the gather's own cap changes nothing: both read row `min s 9999`.

  The contraction over the 192 rows of `W` is the contraction over its first 128 rows plus the one over its last 64:
  a finite sum over `Fin (128 + 64)` split at 128. Sums of extended reals are associative and commutative whatever
  their terms, so no entry needs to be finite.
-/
import Idealize.ShloMosaic.PureOps.Ideal
import Idealize.ShloMosaic.Lib.ValueIdx

noncomputable section

namespace Cert.EdgeLayer

open Idealize.ShloMosaic Idealize.ShloMosaic.ValueIdx

/-- The row of a 10000-row table that a start-index word selects: the word read as a signed integer, a negative one
    sent to 0, capped at 9999. -/
def rowOf (s : BitVec 32) : Fin 10000 := ⟨min s.toInt.toNat 9999, by omega⟩

/-- The layer at edge `e`, feature `d`: the gathered node row against the first 128 rows of `W`, plus the edge's
    own row against the last 64, plus the bias, rectified. -/
def layerAt (atom : (⟨2, ![10000, 128]⟩ : Shape).Idx → EReal) (edge : (⟨2, ![640000, 64]⟩ : Shape).Idx → EReal)
    (src : IVec ⟨1, ![640000]⟩ 32) (W : (⟨2, ![192, 128]⟩ : Shape).Idx → EReal)
    (b : (⟨1, ![128]⟩ : Shape).Idx → EReal) (e : Fin 640000) (d : Fin 128) : EReal :=
  max ((∑ k : Fin 128, atom (ix2 (rowOf (src (ix1 e))) k) * W (ix2 (Fin.castAdd 64 k) d)
        + ∑ k : Fin 64, edge (ix2 e k) * W (ix2 (Fin.natAdd 128 k) d)) + b (ix1 d)) 0

/-- The layer's whole result array. -/
def layer (atom : (⟨2, ![10000, 128]⟩ : Shape).Idx → EReal) (edge : (⟨2, ![640000, 64]⟩ : Shape).Idx → EReal)
    (src : IVec ⟨1, ![640000]⟩ 32) (W : (⟨2, ![192, 128]⟩ : Shape).Idx → EReal)
    (b : (⟨1, ![128]⟩ : Shape).Idx → EReal) : (⟨2, ![640000, 128]⟩ : Shape).Idx → EReal :=
  fun j => layerAt atom edge src W b (j 0) (j 1)

/-! ## Index words -/

/-- A word that is not negative is not below zero in the signed order. -/
theorem not_slt_zero (s : BitVec 32) (h : 0 ≤ s.toInt) : s.slt 0#32 = false := by
  rw [BitVec.slt]
  have : (0#32 : BitVec 32).toInt = 0 := by decide
  rw [this]
  exact decide_eq_false (by omega)

/-- The wrap-around offered to a word that is not negative is not taken. -/
theorem wrap_of_nonneg (s : BitVec 32) (h : 0 ≤ s.toInt) :
    Scalar.select (IntOp.cmpi .slt s 0#32) (IntOp.addi s 10000#32) s = s := by
  unfold Scalar.select IntOp.cmpi
  simp only [not_slt_zero s h]
  rfl

/-- Clipping a word that is not negative into [0, 9999] leaves a word that is not negative and selects the same row. -/
theorem clip_of_nonneg (s : BitVec 32) (h : 0 ≤ s.toInt) :
    0 ≤ (IntOp.minsi 9999#32 (IntOp.maxsi 0#32 s)).toInt
      ∧ rowOf (IntOp.minsi 9999#32 (IntOp.maxsi 0#32 s)) = rowOf s := by
  have h9 : (9999#32 : BitVec 32).toInt = 9999 := by decide
  have hmax : IntOp.maxsi 0#32 s = s := by
    unfold IntOp.maxsi
    rw [not_slt_zero s h]
    rfl
  rw [hmax]
  unfold IntOp.minsi
  by_cases hc : (9999#32 : BitVec 32).slt s = true
  · rw [if_pos hc]
    have hlt : (9999 : Int) < s.toInt := by
      rw [BitVec.slt, h9] at hc
      exact of_decide_eq_true hc
    refine ⟨by rw [h9]; omega, ?_⟩
    unfold rowOf
    refine Fin.ext ?_
    show min (9999#32 : BitVec 32).toInt.toNat 9999 = min s.toInt.toNat 9999
    rw [h9]
    omega
  · rw [if_neg hc]
    exact ⟨h, rfl⟩

/-- Clip, then the wrap-around, then the gather's cap: for a word that is not negative, the row of the word itself. -/
theorem row_clip_wrap (s : BitVec 32) (h : 0 ≤ s.toInt) :
    rowOf (Scalar.select (IntOp.cmpi .slt (IntOp.minsi 9999#32 (IntOp.maxsi 0#32 s)) 0#32)
        (IntOp.addi (IntOp.minsi 9999#32 (IntOp.maxsi 0#32 s)) 10000#32) (IntOp.minsi 9999#32 (IntOp.maxsi 0#32 s)))
      = rowOf s := by
  rw [wrap_of_nonneg _ (clip_of_nonneg s h).1]
  exact (clip_of_nonneg s h).2

/-- The wrap-around, then the gather's cap: for a word that is not negative, the row of the word itself. -/
theorem row_wrap (s : BitVec 32) (h : 0 ≤ s.toInt) :
    rowOf (Scalar.select (IntOp.cmpi .slt s 0#32) (IntOp.addi s 10000#32) s) = rowOf s := by
  rw [wrap_of_nonneg s h]

/-! ## The contraction split at row 128 -/

/-- A sum over the 192 rows is the sum over the first 128 plus the sum over the last 64. -/
theorem sum_split (f : Fin 192 → EReal) :
    ∑ k : Fin 192, f k = ∑ k : Fin 128, f (Fin.castAdd 64 k) + ∑ k : Fin 64, f (Fin.natAdd 128 k) :=
  Fin.sum_univ_add (a := 128) (b := 64) f

end Cert.EdgeLayer

end
-- ==== Proof.KernelValue.lean ====
/-
  The kernel program's result array is the layer (`Cert.EdgeLayer.layer`) of its five argument arrays, when no index
  word is negative.

  The program is: two weight slices (rows 0–127 and rows 128–191 of `W`); the first region (the projected node table);
  the index words clipped into [0, 9999], offered the wrap-around, and used to gather rows of the projected table; the
  bias recast as one row; the second region. Reading the second region's result at edge `e`, feature `d` back through
  these stages:

    * its gathered entry is the projected table's row `r e` at `d`, that is `Σ_{k<128} atom (r e, k) · W (k, d)`, where
      `r e` is the row the clipped and wrapped index word selects: for a word that is not negative, the row of the word;
    * its edge row is the edge array's row `e`, its weight column is column `d` of rows 128–191 of `W`, its bias
      entry is `b d`;
    * no stage between the launch and a region's entry writes an argument array.
-/
import proofs.«425106_j41532333752513_3_alg».proof.Proof.KernelRun
import proofs.«425106_j41532333752513_3_alg».proof.Proof.NodeRegion
import proofs.«425106_j41532333752513_3_alg».proof.Proof.EdgeRegion
import proofs.«425106_j41532333752513_3_alg».proof.Proof.LibGatherRows
import proofs.«425106_j41532333752513_3_alg».proof.Proof.EdgeLayer
import Idealize.ShloMosaic.Lib.StableHlo.Run

set_option maxRecDepth 16384

noncomputable section

namespace Cert.KernelValue

open Cert.KernelIdeal Cert.KernelIdeal.Gen Cert.EdgeLayer
open Idealize.ShloMosaic Idealize.ShloMosaic.TcCoe Idealize.SL.Sem Idealize.ShloMosaic.StableHlo
open Idealize.ShloMosaic.ValueIdx

variable (m : (ℓ : Loc nD τ sig) → Buf (Elt Ideal) ℓ) (ρ : Dev nD → PrngReg)

/-- The five argument arrays at launch. -/
abbrev atomA (c : Dev nD) : FVec Ideal S10000x128 .f32 := m ((c.tc : Thread nD τ).loc main_arg0)
abbrev edgeA (c : Dev nD) : FVec Ideal S640000x64 .f32 := m ((c.tc : Thread nD τ).loc main_arg1)
abbrev srcA (c : Dev nD) : IVec S640000 32 := m ((c.tc : Thread nD τ).loc main_arg2)
abbrev weightA (c : Dev nD) : FVec Ideal S192x128 .f32 := m ((c.tc : Thread nD τ).loc main_arg3)
abbrev biasA (c : Dev nD) : FVec Ideal S128 .f32 := m ((c.tc : Thread nD τ).loc main_arg4)

/-- The index words clipped into [0, 9999]. -/
def clipped (s : IVec S640000 32) : IVec S640000 32 :=
  minsi (broadcastInDim S640000 ![] bcast_S_S640000 (constantI S_ 32 9999#32))
    (maxsi (broadcastInDim S640000 ![] bcast_S_S640000 (constantI S_ 32 0#32)) s)

/-- The wrap-around `+ 10000` offered to negative words. -/
def wrapped (s : IVec S640000 32) : IVec S640000 32 :=
  select (cmpi .slt s (broadcastInDim S640000 ![] bcast_S_S640000 (constantI S_ 32 0#32)))
    (addi s (broadcastInDim S640000 ![] bcast_S_S640000 (constantI S_ 32 10000#32))) s

/-! ## What the first region finds -/

theorem entry0_atom (c : Dev nD) : V1 m ρ c main_arg0 = atomA m c := by
  show StableHlo.after hostOps0 (W0 m ρ c) (Proc.devRef .tc main_arg0) = _
  after_results <;> rfl

theorem entry0_wsrc (c : Dev nD) :
    V1 m ρ c main_v0 = extractStridedSlice S128x128 ![0, 0] (weightA m c) slices_S192x128_S128x128_0_0 := by
  show StableHlo.after hostOps0 (W0 m ρ c) (Proc.devRef .tc main_v0) = _
  after_results <;> rfl

/-- The same two, over the first region's arrays at their literal types. -/
theorem node_eq (c : Dev nD) : NodeRegion.nodeArr (V1 m ρ) c = atomA m c := entry0_atom m ρ c
theorem wsrc_eq (c : Dev nD) :
    NodeRegion.wsrcArr (V1 m ρ) c = extractStridedSlice S128x128 ![0, 0] (weightA m c) slices_S192x128_S128x128_0_0 :=
  entry0_wsrc m ρ c

/-! ## The first region's exit: argument arrays and the second weight slice untouched, the projected table written -/

theorem exit0_src (c : Dev nD) : W2 m ρ c (Proc.devRef .tc main_arg2) = srcA m c := by
  rw [W2_of_ne m ρ c main_arg2 (by decide)]
  show StableHlo.after hostOps0 (W0 m ρ c) (Proc.devRef .tc main_arg2) = _
  after_results <;> rfl

theorem exit0_bias (c : Dev nD) : W2 m ρ c (Proc.devRef .tc main_arg4) = biasA m c := by
  rw [W2_of_ne m ρ c main_arg4 (by decide)]
  show StableHlo.after hostOps0 (W0 m ρ c) (Proc.devRef .tc main_arg4) = _
  after_results <;> rfl

theorem exit0_edge (c : Dev nD) : W2 m ρ c (Proc.devRef .tc main_arg1) = edgeA m c := by
  rw [W2_of_ne m ρ c main_arg1 (by decide)]
  show StableHlo.after hostOps0 (W0 m ρ c) (Proc.devRef .tc main_arg1) = _
  after_results <;> rfl

theorem exit0_wedge (c : Dev nD) :
    W2 m ρ c (Proc.devRef .tc main_v1) = extractStridedSlice S64x128 ![128, 0] (weightA m c) slices_S192x128_S64x128_128_0 := by
  rw [W2_of_ne m ρ c main_v1 (by decide)]
  show StableHlo.after hostOps0 (W0 m ρ c) (Proc.devRef .tc main_v1) = _
  after_results <;> rfl

theorem exit0_proj (c : Dev nD) : W2 m ρ c (Proc.devRef .tc main_v2) = NodeRegion.projArr (V1 m ρ) c :=
  (W2_arr m ρ c 2).trans (NodeRegion.proj_array (V1 m ρ) c)

/-! ## What the second region finds -/

set_option maxHeartbeats 1600000 in
theorem entry1_src (c : Dev nD) :
    V5 m ρ c main_v10 = Host.gather gather_S10000x128_S640000x1_S640000x128_1_0_n_n_0_1_1128
      (W2 m ρ c (Proc.devRef .tc main_v2))
      (broadcastInDim S640000x1 ![0] bcast_S640000_S640000x1_0 (wrapped (clipped (W2 m ρ c (Proc.devRef .tc main_arg2))))) := by
  show StableHlo.after hostOps1_2 (StableHlo.after hostOps1_1 (StableHlo.after hostOps1 (W2 m ρ c))) (Proc.devRef .tc main_v10) = _
  after_results <;> rfl

theorem entry1_bias (c : Dev nD) :
    V5 m ρ c main_v11 = shapeCast S1x128 (W2 m ρ c (Proc.devRef .tc main_arg4)) shapeCasts_S128_S1x128 := by
  show StableHlo.after hostOps1_2 (StableHlo.after hostOps1_1 (StableHlo.after hostOps1 (W2 m ρ c))) (Proc.devRef .tc main_v11) = _
  after_results <;> rfl

theorem entry1_wedge (c : Dev nD) : V5 m ρ c main_v1 = W2 m ρ c (Proc.devRef .tc main_v1) := by
  show StableHlo.after hostOps1_2 (StableHlo.after hostOps1_1 (StableHlo.after hostOps1 (W2 m ρ c))) (Proc.devRef .tc main_v1) = _
  after_results

theorem entry1_edge (c : Dev nD) : V5 m ρ c main_arg1 = W2 m ρ c (Proc.devRef .tc main_arg1) := by
  show StableHlo.after hostOps1_2 (StableHlo.after hostOps1_1 (StableHlo.after hostOps1 (W2 m ρ c))) (Proc.devRef .tc main_arg1) = _
  after_results

/-! ## The four inputs of the second region, entry by entry, from the launch memory -/

/-- The start-index word of edge `e`. -/
theorem start_word (s : IVec S640000 32) (e : Fin 640000) :
    broadcastInDim S640000x1 ![0] bcast_S640000_S640000x1_0 (wrapped (clipped s)) (ix2 e (0 : Fin 1))
      = Scalar.select (IntOp.cmpi .slt (IntOp.minsi 9999#32 (IntOp.maxsi 0#32 (s (ix1 e)))) 0#32)
          (IntOp.addi (IntOp.minsi 9999#32 (IntOp.maxsi 0#32 (s (ix1 e)))) 10000#32)
          (IntOp.minsi 9999#32 (IntOp.maxsi 0#32 (s (ix1 e)))) := by
  have hb : ∀ (w : BitVec 32) (i : S640000.Idx), broadcastInDim S640000 ![] bcast_S_S640000 (constantI S_ 32 w) i = w :=
    fun w i => broadcastInDim_apply _ bcast_S_S640000 (constantI S_ 32 w) i ix0 (fun a => a.elim0)
  rw [broadcastInDim_apply ![0] bcast_S640000_S640000x1_0 (wrapped (clipped s)) (ix2 e (0 : Fin 1)) (ix1 e) (fun a => by
    match a with
    | ⟨0, _⟩ => show e.val = if (640000 : Nat) = 1 then 0 else e.val; rw [if_neg (by decide)])]
  show Scalar.select (IntOp.cmpi .slt (clipped s (ix1 e)) (broadcastInDim S640000 ![] bcast_S_S640000 (constantI S_ 32 0#32) (ix1 e)))
      (IntOp.addi (clipped s (ix1 e)) (broadcastInDim S640000 ![] bcast_S_S640000 (constantI S_ 32 10000#32) (ix1 e)))
      (clipped s (ix1 e)) = _
  have hc : clipped s (ix1 e) = IntOp.minsi 9999#32 (IntOp.maxsi 0#32 (s (ix1 e))) := by
    show IntOp.minsi (broadcastInDim S640000 ![] bcast_S_S640000 (constantI S_ 32 9999#32) (ix1 e))
      (IntOp.maxsi (broadcastInDim S640000 ![] bcast_S_S640000 (constantI S_ 32 0#32) (ix1 e)) (s (ix1 e))) = _
    rw [hb, hb]
  rw [hc, hb, hb]

/-- The gathered entry at `(e, d)`: the projected node table's row of the index word, when it is not negative. -/
theorem src_apply (c : Dev nD) (hnn : ∀ e : Fin 640000, 0 ≤ (srcA m c (ix1 e)).toInt) (e : Fin 640000) (d : Fin 128) :
    EdgeRegion.srcArr (V5 m ρ) c (ix2 e d)
      = ∑ k : Fin 128, (atomA m c (ix2 (rowOf (srcA m c (ix1 e))) k) : EReal) * weightA m c (ix2 (Fin.castAdd 64 k) d) := by
  show V5 m ρ c main_v10 (ix2 e d) = _
  rw [entry1_src, exit0_src, exit0_proj]
  refine (Cert.LibGatherRows.gather_rows_apply (N := 10000) (K := 128) (E := 640000) (by decide)
    gather_S10000x128_S640000x1_S640000x128_1_0_n_n_0_1_1128_wf (NodeRegion.projArr (V1 m ρ) c) _ e d).trans ?_
  have hr : (⟨min (broadcastInDim S640000x1 ![0] bcast_S640000_S640000x1_0 (wrapped (clipped (srcA m c))) (ix2 e (0 : Fin 1))).toInt.toNat
      (10000 - 1), by omega⟩ : Fin 10000) = rowOf (srcA m c (ix1 e)) := by
    refine Fin.ext ?_
    show min (broadcastInDim S640000x1 ![0] bcast_S640000_S640000x1_0 (wrapped (clipped (srcA m c))) (ix2 e (0 : Fin 1))).toInt.toNat
      (10000 - 1) = (rowOf (srcA m c (ix1 e))).val
    rw [start_word]
    exact congrArg Fin.val (row_clip_wrap (srcA m c (ix1 e)) (hnn e))
  rw [hr]
  show NodeRegion.projAt (V1 m ρ) c (rowOf (srcA m c (ix1 e))) d = _
  unfold NodeRegion.projAt
  refine Finset.sum_congr rfl fun k _ => ?_
  rw [node_eq, wsrc_eq]
  congr 1
  exact extractStridedSlice_apply ![0, 0] (weightA m c) slices_S192x128_S128x128_0_0 (ix2 k d) (ix2 (Fin.castAdd 64 k) d) (fun a => by
    match a with
    | ⟨0, _⟩ => show k.val = 0 + k.val; omega
    | ⟨1, _⟩ => show d.val = 0 + d.val; omega)

/-- The edge row. -/
theorem edge_apply (c : Dev nD) (e : Fin 640000) (k : Fin 64) :
    EdgeRegion.edgeArr (V5 m ρ) c (ix2 e k) = edgeA m c (ix2 e k) := by
  show V5 m ρ c main_arg1 (ix2 e k) = _
  rw [entry1_edge, exit0_edge]

/-- The weight column: rows 128–191 of `W`. -/
theorem wedge_apply (c : Dev nD) (k : Fin 64) (d : Fin 128) :
    EdgeRegion.wedgeArr (V5 m ρ) c (ix2 k d) = weightA m c (ix2 (Fin.natAdd 128 k) d) := by
  show V5 m ρ c main_v1 (ix2 k d) = _
  rw [entry1_wedge, exit0_wedge]
  exact extractStridedSlice_apply ![128, 0] (weightA m c) slices_S192x128_S64x128_128_0 (ix2 k d) (ix2 (Fin.natAdd 128 k) d) (fun a => by
    match a with
    | ⟨0, _⟩ => show 128 + k.val = 128 + k.val; rfl
    | ⟨1, _⟩ => show d.val = 0 + d.val; omega)

/-- The bias entry. -/
theorem bias_apply (c : Dev nD) (d : Fin 128) :
    EdgeRegion.biasArr (V5 m ρ) c (ix2 (0 : Fin 1) d) = biasA m c (ix1 d) := by
  show V5 m ρ c main_v11 (ix2 (0 : Fin 1) d) = _
  rw [entry1_bias, exit0_bias]
  exact shapeCast_apply (biasA m c) shapeCasts_S128_S1x128 (ix2 (0 : Fin 1) d) (ix1 d) (by
    rw [Shape.rowMajor_val_two, Shape.rowMajor_val_one]; show d.val = 0 * 128 + d.val; omega)

/-! ## The result -/

/-- THE KERNEL PROGRAM'S RESULT ARRAY is the layer, when no index word is negative. -/
theorem result_is_layer (c : Dev nD) (hnn : ∀ e : Fin 640000, 0 ≤ (srcA m c (ix1 e)).toInt) :
    W6 m ρ c (Proc.devRef .tc main_v12) = layer (atomA m c) (edgeA m c) (srcA m c) (weightA m c) (biasA m c) := by
  refine ((W6_arr m ρ c 4).trans (EdgeRegion.combine_array (V5 m ρ) c)).trans ?_
  funext j
  obtain ⟨e, d, rfl⟩ : ∃ (e : Fin 640000) (d : Fin 128), j = ix2 e d := ⟨j 0, j 1, eq_ix2 j⟩
  show EdgeRegion.combineAt (V5 m ρ) c e d = layerAt (atomA m c) (edgeA m c) (srcA m c) (weightA m c) (biasA m c) e d
  unfold EdgeRegion.combineAt layerAt
  rw [src_apply m ρ c hnn e d, bias_apply m ρ c d]
  simp only [edge_apply m ρ c e, wedge_apply m ρ c]

end Cert.KernelValue

end
-- ==== Proof.ReferenceLayer.lean ====
/-
  The reference computes the layer (`Cert.EdgeLayer.layer`), entry by entry, at the ideal values.

  Its result at edge `e`, feature `d` is the rectified sum of a bias entry and a contraction over the 192 columns of
  the joined row "gathered node row, then the edge's own row". Reading the stages from the result back:

    * the joined row at a column below 128 is the gathered node row there, and at column `128 + k` the edge's own
      entry `k` (a two-piece concatenation along the columns);
    * the gathered node row of `e` is the table row selected by the start-index word of `e`, which is the index word
      after the wrap-around `+ 10000` offered to negative words; for a word that is not negative that is the row of the
      word itself;
    * the contraction over 192 columns splits at column 128 into the two contractions of the layer.
-/
import proofs.«425106_j41532333752513_3_alg».proof.Proof.Gen.ReferenceIdeal.Read
import proofs.«425106_j41532333752513_3_alg».proof.Proof.LibGatherRows
import proofs.«425106_j41532333752513_3_alg».proof.Proof.EdgeLayer

noncomputable section

namespace Cert.ReferenceLayer

open Cert.ReferenceIdeal Cert.ReferenceIdeal.Gen Cert.ReferenceIdeal.Read Cert.EdgeLayer
open Idealize.ShloMosaic Idealize.ShloMosaic.ValueIdx

variable (x0 : (⟨S10000x128, .f32⟩ : BufTy).Contents (Elt Ideal)) (x1 : (⟨S640000x64, .f32⟩ : BufTy).Contents (Elt Ideal))
  (x2 : (⟨S640000, .i32⟩ : BufTy).Contents (Elt Ideal)) (x3 : (⟨S192x128, .f32⟩ : BufTy).Contents (Elt Ideal))
  (x4 : (⟨S128, .f32⟩ : BufTy).Contents (Elt Ideal))

/-- The start-index word of edge `e`: the index word, with the wrap-around `+ 10000` where it is negative. -/
theorem start_word (e : Fin 640000) :
    val_main_v5 (F := Ideal) x2 (ix2 e (0 : Fin 1))
      = Scalar.select (IntOp.cmpi .slt (x2 (ix1 e)) 0#32) (IntOp.addi (x2 (ix1 e)) 10000#32) (x2 (ix1 e)) := by
  have hi : idx_main_v5 (ix2 e (0 : Fin 1)) = ix1 e := funext fun a => Fin.ext (by
    match a with
    | ⟨0, _⟩ => rfl)
  rw [val_main_v5_apply, val_main_v4_apply, val_main_v1_apply, val_main_v3_apply, val_main_v0_apply, val_main_v2_apply,
    val_main_c_apply, val_main_c_0_apply, hi]

/-- The gathered node row of edge `e` at column `k`: for an index word that is not negative, the table's row of that
    word, capped at the last row. -/
theorem gathered_apply (hnn : ∀ e : Fin 640000, 0 ≤ (x2 (ix1 e)).toInt) (e : Fin 640000) (k : Fin 128) :
    val_main_v6 (F := Ideal) x0 x2 (ix2 e k) = x0 (ix2 (rowOf (x2 (ix1 e))) k) := by
  unfold val_main_v6
  refine (Cert.LibGatherRows.gather_rows_apply (N := 10000) (K := 128) (E := 640000) (by decide)
    gather_S10000x128_S640000x1_S640000x128_1_0_n_n_0_1_1128_wf x0 (val_main_v5 (F := Ideal) x2) e k).trans ?_
  refine congrArg (fun r : Fin 10000 => x0 (ix2 r k)) (Fin.ext ?_)
  show min (val_main_v5 (F := Ideal) x2 (ix2 e (0 : Fin 1))).toInt.toNat (10000 - 1) = (rowOf (x2 (ix1 e))).val
  rw [start_word]
  exact congrArg Fin.val (row_wrap (x2 (ix1 e)) (hnn e))

/-- The joined row at a column below 128 is the gathered node row there. -/
theorem joined_left (e : Fin 640000) (d : Fin 128) (k : Fin 128) :
    val_main_v7 (F := Ideal) x0 x1 x2 (lidx_main_v8 (ix2 e d) (Fin.castAdd 64 k)) = val_main_v6 (F := Ideal) x0 x2 (ix2 e k) := by
  unfold val_main_v7
  exact concatenate_pair_apply_left (t := S640000x192) (s₁ := S640000x128) (s₂ := S640000x64) (1 : Fin 2) _ _
    concatenates_S640000x128_S640000x64_S640000x192_d1 (lidx_main_v8 (ix2 e d) (Fin.castAdd 64 k)) rfl (ix2 e k)
    (fun b => by
      match b with
      | ⟨0, _⟩ => rfl
      | ⟨1, _⟩ => rfl)

/-- The joined row at column `128 + k` is the edge's own entry `k`. -/
theorem joined_right (e : Fin 640000) (d : Fin 128) (k : Fin 64) :
    val_main_v7 (F := Ideal) x0 x1 x2 (lidx_main_v8 (ix2 e d) (Fin.natAdd 128 k)) = x1 (ix2 e k) := by
  unfold val_main_v7
  exact concatenate_pair_apply_right (t := S640000x192) (s₁ := S640000x128) (s₂ := S640000x64) (1 : Fin 2) _ _
    concatenates_S640000x128_S640000x64_S640000x192_d1 (lidx_main_v8 (ix2 e d) (Fin.natAdd 128 k)) rfl rfl (ix2 e k)
    (fun b hb => by
      match b with
      | ⟨0, _⟩ => rfl
      | ⟨1, _⟩ => exact absurd rfl hb)
    (by show k.val + 128 = 128 + k.val; omega)

/-- The weight read against column `k` of the joined row is `W (k, d)`. -/
theorem weight_idx (e : Fin 640000) (d : Fin 128) (k : Fin 192) : ridx_main_v8 (ix2 e d) k = ix2 k d :=
  funext fun a => Fin.ext (by
    match a with
    | ⟨0, _⟩ => rfl
    | ⟨1, _⟩ => rfl)

/-- The bias laid along every row, at `(e, d)`, is the bias entry `d`. -/
theorem bias_idx (e : Fin 640000) (d : Fin 128) : idx_main_v9 (idx_main_v10 (ix2 e d)) = ix1 d :=
  funext fun a => Fin.ext (by
    match a with
    | ⟨0, _⟩ => rfl)

/-- THE REFERENCE IS THE LAYER, when no index word is negative. -/
theorem reference_is_layer (hnn : ∀ e : Fin 640000, 0 ≤ (x2 (ix1 e)).toInt) :
    val_main_v12 (F := Ideal) x0 x1 x2 x3 x4 = layer x0 x1 x2 x3 x4 := by
  funext j
  obtain ⟨e, d, rfl⟩ : ∃ (e : Fin 640000) (d : Fin 128), j = ix2 e d := ⟨j 0, j 1, eq_ix2 j⟩
  rw [val_main_v12_apply, val_main_v11_apply, val_main_v8_apply, val_main_v10_apply, val_main_v9_apply,
    val_main_call0_v0_apply, val_main_call0_cst_apply, sum_split]
  simp only [joined_left, joined_right, gathered_apply x0 x2 hnn, weight_idx, bias_idx]
  rw [Ideal.maximumf_def, Ideal.addf_def, Ideal.ofBits_def, Ideal.ofBits_zero_f32]
  rfl

end Cert.ReferenceLayer

end
-- ==== Proof.IndexDomain.lean ====
/-
  The precondition says that no index word is negative.

  The printed precondition is a conjunction of five `all`s: four say that a float array is finite, the fifth that the
  signed comparison `index word ≥ 0` holds at every edge. A conjunction that is one has both conjuncts one; an `all`
  (a reduction by `and` from the constant one, over every axis) that is one had a one at every index; and the signed
  comparison `s ≥ 0` being one says `0 ≤ s` as integers.
-/
import proofs.«425106_j41532333752513_3_alg».proof.Pre_finite_inputs
import Idealize.ShloMosaic.Lib.ReduceAll
import Idealize.ShloMosaic.Lib.ValueIdx
import Idealize.ShloMosaic.Lib.Pipeline.Value

noncomputable section

namespace Cert.IndexDomain

open Idealize.ShloMosaic Idealize.ShloMosaic.ValueIdx Cert.Pre_finite_inputs

variable [Cert.Pre_finite_inputs.Facts]
open Cert.Pre_finite_inputs.Facts

/-- A scalar has one index. -/
instance : Subsingleton S_.Idx := ⟨fun a b => funext fun d => d.elim0⟩

/-- Under the precondition every index word is at least zero as a signed integer. -/
theorem nonneg_of_pre {F : FTy → Type} [FloatOps F] (a0 : FVec F S10000x128 .f32) (a1 : FVec F S640000x64 .f32)
    (a2 : IVec S640000 32) (a3 : FVec F S192x128 .f32) (a4 : FVec F S128 .f32)
    (h : fn (F := F) a0 a1 a2 a3 a4 = fun _ => 1#1) (e : Fin 640000) : 0 ≤ (a2 (ix1 e)).toInt := by
  have h0 := congrFun h ix0
  dsimp only [fn, fn_part1] at h0
  obtain ⟨-, h21⟩ := IntOp.andi_eq_one.1 h0
  have hc := Host.reduce_andi_all _ _ reducesTo_S640000_S_d0 h_S_ ix0 h21 (ix1 e)
  have hle := IntOp.cmpi_sge.1 hc
  have hb : broadcastInDim S640000 ![] bcast_S_S640000 (constantI S_ 32 0#32) (ix1 e) = 0#32 :=
    broadcastInDim_apply _ bcast_S_S640000 (constantI S_ 32 0#32) (ix1 e) ix0 (fun a => a.elim0)
  rw [hb] at hle
  exact hle

end Cert.IndexDomain

end
-- ==== Proof.lean ====
/-
  A message-passing edge layer: for every edge `e` with source node `src e`,

      out (e, ·) = relu ( [ atom (src e, ·) , edge (e, ·) ] · W + b ),

  the 192 columns of the joined row being the source node's 128 features followed by the edge's own 64.

  The reference gathers the node rows, joins them with the edge rows and contracts the 192 columns against `W`.
  The kernel program splits `W` into its first 128 rows and its last 64, projects the whole node table once
  (`atom · W[0:128]`), gathers rows of the PROJECTED table, and adds to them the edge rows contracted against
  `W[128:192]`, the bias, and the rectifier. Over the extended reals the two are one function: a contraction over
  `128 + 64` columns is the sum of the two contractions, gathering a row and then contracting it is contracting every
  row and then gathering, and sums of extended reals are associative and commutative whatever their terms — no entry
  needs to be finite for this, and a change of float format is the identity.

  Where the two programs differ is the index word. The kernel program clips it into [0, 9999] before the gather; the
  reference offers a negative word the wrap-around `+ 10000`. At a word in [−9999, −1] the first reads row 0, the
  second a row counted from the end. The precondition therefore carries, beside the finiteness of the float arrays,
  that no index word is negative; then neither wrap-around is taken and both programs read row `min (src e) 9999`
  (the gather's own cap makes the clip's upper half redundant, so no upper bound is assumed).

  The pieces: `Cert.EdgeLayer` (the layer as one function; the index-word facts; the contraction split),
  `Cert.ReferenceLayer` (the reference's stages read back to it), `Cert.KernelBodies`, `Cert.NodeRegion`,
  `Cert.EdgeRegion` and `Cert.KernelValue` (the two kernel bodies at an entry, each region's result array, and the
  program's result read back through the stages between them), `Cert.IndexDomain` (the precondition read back).
  The kernel program's run with its result named is `Cert.KernelIdeal.RunNamed.run_named`; the three frames are the
  generated ones, the reference's being its generated run with the result dropped.
-/
import proofs.«425106_j41532333752513_3_alg».proof.Defs
import proofs.«425106_j41532333752513_3_alg».proof.Proof.Gen.Kernel
import proofs.«425106_j41532333752513_3_alg».proof.Proof.Gen.Kernel.Skeleton
import proofs.«425106_j41532333752513_3_alg».proof.Proof.Gen.Kernel.Launch
import proofs.«425106_j41532333752513_3_alg».proof.Proof.Gen.Kernel.Points
import proofs.«425106_j41532333752513_3_alg».proof.Proof.Gen.Kernel.Frame
import proofs.«425106_j41532333752513_3_alg».proof.Proof.Gen.KernelIdeal
import proofs.«425106_j41532333752513_3_alg».proof.Proof.Gen.KernelIdeal.Skeleton
import proofs.«425106_j41532333752513_3_alg».proof.Proof.Gen.KernelIdeal.Launch
import proofs.«425106_j41532333752513_3_alg».proof.Proof.Gen.KernelIdeal.Points
import proofs.«425106_j41532333752513_3_alg».proof.Proof.Gen.KernelIdeal.Frame
import proofs.«425106_j41532333752513_3_alg».proof.Proof.Gen.ReferenceIdeal
import proofs.«425106_j41532333752513_3_alg».proof.Proof.Gen.ReferenceIdeal.Run
import proofs.«425106_j41532333752513_3_alg».proof.Proof.Gen.ReferenceIdeal.Read
import proofs.«425106_j41532333752513_3_alg».proof.Proof.Gen.Pre_finite_inputs
import proofs.«425106_j41532333752513_3_alg».proof.Proof.KernelValue
import proofs.«425106_j41532333752513_3_alg».proof.Proof.ReferenceLayer
import proofs.«425106_j41532333752513_3_alg».proof.Proof.IndexDomain
import Idealize.ShloMosaic.Adequacy
import Idealize.ShloMosaic.Init

noncomputable section

namespace Cert.Proof

open Idealize.ShloMosaic Idealize.SL.Sem Idealize.ShloMosaic.ValueIdx

theorem frame_kernel : Cert.frame_Kernel := fun m ρ _ => Cert.Kernel.Gen.frame m ρ

theorem frame_kernelIdeal : Cert.frame_KernelIdeal := fun m ρ _ => Cert.KernelIdeal.Gen.frame m ρ

theorem frame_referenceIdeal : Cert.frame_ReferenceIdeal := fun m ρ _ =>
  (θ_run Cert.ReferenceIdeal.defs _ _).mono (fun _ h c => (h c).2) (Cert.ReferenceIdeal.Value.run (F := Ideal) m ρ)

/-- Both programs end with the layer of the (agreeing) argument arrays in their result buffer: the kernel program by
    `Cert.KernelValue.result_is_layer`, the reference by `Cert.ReferenceLayer.reference_is_layer`, each under "no index
    word is negative", which the precondition gives. -/
theorem algebraic : Cert.algebraic_KernelIdeal_ReferenceIdeal := by
  intro m ρ m' ρ' hpre hagree
  have hnn : ∀ (c : Dev Cert.KernelIdeal.nD) (e : Fin 640000), 0 ≤ (Cert.KernelValue.srcA m c (ix1 e)).toInt :=
    fun c e => Cert.IndexDomain.nonneg_of_pre _ _ _ _ _ (hpre c) e
  refine ⟨fun c => Cert.EdgeLayer.layer (Cert.KernelValue.atomA m c) (Cert.KernelValue.edgeA m c) (Cert.KernelValue.srcA m c)
    (Cert.KernelValue.weightA m c) (Cert.KernelValue.biasA m c), ?_, ?_⟩
  · exact (θ_run Cert.KernelIdeal.defs _ _).mono
      (fun r h c => ⟨(h c).1.trans (Cert.KernelValue.result_is_layer m ρ c (hnn c)), (h c).2⟩)
      (Cert.KernelIdeal.RunNamed.run_named m ρ)
  · refine (θ_run Cert.ReferenceIdeal.defs _ _).mono (fun r h c => ⟨(h c).1.trans ?_, (h c).2⟩)
      (Cert.ReferenceIdeal.Value.run (F := Ideal) m' ρ')
    rw [(hagree c).1, (hagree c).2.1, (hagree c).2.2.1, (hagree c).2.2.2.1, (hagree c).2.2.2.2]
    exact (Cert.ReferenceIdeal.Read.val_main_v12_eq _ _ _ _ _).trans
      (Cert.ReferenceLayer.reference_is_layer _ _ _ _ _ (hnn c))

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, trivial, algebraic⟩

end Cert.Proof

end
